-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S4096x4096 .f32) (main_arg1 : FVec F S4096x4096 .f32) (main_arg2 : FVec F S4096x4096 .f32) (main_arg3 : FVec F S4096 .f32) (main_arg4 : FVec F S4096 .f32) (main_arg5 : FVec F S4096x4096 .f32) (main_arg6 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S4096x4096 : Shape := ⟨2, ![4096, 4096]⟩
abbrev S4096 : Shape := ⟨1, ![4096]⟩
abbrev S1x4096 : Shape := ⟨2, ![1, 4096]⟩
abbrev S1024x512 : Shape := ⟨2, ![1024, 512]⟩
abbrev S512x512 : Shape := ⟨2, ![512, 512]⟩
abbrev S1x512 : Shape := ⟨2, ![1, 512]⟩

abbrev nBuf : Space → Nat
  | .hbm => 11
  | .vmem => 17
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S4096x4096, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg2 : BitVec 32 := BitVec.ofNat 32 (i 2).val
  let c7_i32 : BitVec 32 := 7#32
  let v21 : BitVec 1 := Scalar.cmpi .eq arg2 c7_i32
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .f32 = 32 ∨ (Rect.block (s := S4096x4096) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .f32 = 32 ∨ (Rect.block (s := S4096x4096) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4096.size a
  hwx0_3 : ∀ i : grid0.Coords, EltTy.bits .f32 = 32 ∨ (Rect.block (s := S4096x4096) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .f32 = 32 ∨ (Rect.block (s := S1x4096) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x4096.size a
  hwx0_6 : ∀ i : grid0.Coords, EltTy.bits .f32 = 32 ∨ (Rect.block (s := S1x4096) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S4096x4096.size a
  hwx0_7 : ∀ i : grid0.Coords, EltTy.bits .f32 = 32 ∨ (Rect.block (s := S4096x4096) S1024x512.size (cc0_transform_7 i) (hinb0_7 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S4096x4096, .f32⟩
  | .hbm, ⟨18, _⟩ => ⟨S4096x4096, .f32⟩
  | .hbm, ⟨19, _⟩ => ⟨S4096, .f32⟩
  | .hbm, ⟨20, _⟩ => ⟨S4096, .f32⟩
  | .hbm, ⟨21, _⟩ => ⟨S4096x4096, .f32⟩
  | .hbm, ⟨22, _⟩ => ⟨S1x4096, .f32⟩
  | .hbm, ⟨23, _⟩ => ⟨S4096x4096, .f32⟩
  | .hbm, ⟨24, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.Spec.lean ====
/-
  The Bayesian linear layer as ONE function of its seven argument arrays, on the extended reals.

  A sampled parameter is `μ + (log (1 + e^ρ) + c) · ε` with `c` the binary value of the literal both programs share;
  the layer's entry at row `i`, column `j` is `(∑ k < 4096, x[i,k] · W[j,k]) + b[j]` with `W`, `b` the sampled
  weight and bias. Arrays are read at natural-number coordinates (zero outside the array), so that a block's
  offset is plain arithmetic; the contraction over 4096 is the sum over eight consecutive runs of 512, which holds
  in any commutative additive monoid and so on the extended reals with no finiteness assumption.
-/
import Idealize.ShloMosaic.PureOps.Ideal
import Idealize.ShloMosaic.Lib.ValueIdx
import Mathlib.Algebra.BigOperators.Intervals

noncomputable section

namespace Cert.BayesLinear

open Idealize.ShloMosaic Idealize.ShloMosaic.ValueIdx

/-- A [4096, 4096] array of extended reals. -/
abbrev Mat : Type := (⟨2, ![4096, 4096]⟩ : Shape).Idx → EReal
/-- A [4096] array of extended reals. -/
abbrev Row : Type := (⟨1, ![4096]⟩ : Shape).Idx → EReal

/-- The shared literal `9.99999993e-9`, at its exact binary value. -/
def epsC : EReal := Ideal.ofBits .f32 0x322BCC77#32

/-- A sampled parameter: `μ + (softplus ρ + c) · ε`. -/
def sample (μ ρ ε : EReal) : EReal := μ + (Ideal.log1p (Ideal.exp ρ) + epsC) * ε

/-- A matrix read at natural coordinates, zero outside. -/
def at2 (A : Mat) (r k : ℕ) : EReal := if h : r < 4096 ∧ k < 4096 then A (ix2 ⟨r, h.1⟩ ⟨k, h.2⟩) else 0

/-- A row read at a natural coordinate, zero outside. -/
def at1 (v : Row) (j : ℕ) : EReal := if h : j < 4096 then v (ix1 ⟨j, h⟩) else 0

theorem at2_ix2 (A : Mat) (r k : Fin 4096) : at2 A r.val k.val = A (ix2 r k) := by
  unfold at2; rw [dif_pos ⟨r.isLt, k.isLt⟩]

theorem at1_ix1 (v : Row) (j : Fin 4096) : at1 v j.val = v (ix1 j) := by
  unfold at1; rw [dif_pos j.isLt]

section Layer

variable (X Wμ Wρ : Mat) (bμ bρ : Row) (Wε : Mat) (bε : Row)

/-- The sampled weight at output feature `j`, input feature `k`. -/
def weight (j k : ℕ) : EReal := sample (at2 Wμ j k) (at2 Wρ j k) (at2 Wε j k)

/-- The sampled bias at output feature `j`. -/
def bias (j : ℕ) : EReal := sample (at1 bμ j) (at1 bρ j) (at1 bε j)

/-- One term of the contraction. -/
def term (i j k : ℕ) : EReal := at2 X i k * weight Wμ Wρ Wε j k

/-- The run of 512 consecutive terms starting at `512 · s`. -/
def run512 (i j s : ℕ) : EReal := ∑ kk : Fin 512, term X Wμ Wρ Wε i j (512 * s + kk.val)

/-- THE LAYER: `x · Wᵀ + b`. -/
def layer : Mat := fun i =>
  (∑ k ∈ Finset.range 4096, term X Wμ Wρ Wε (i 0).val (i 1).val k) + bias bμ bρ bε (i 1).val

end Layer

/-- A sum over `a · b` consecutive naturals is the sum over `a` consecutive runs of `b`. -/
theorem sum_range_runs {M : Type*} [AddCommMonoid M] (f : ℕ → M) (b : ℕ) :
    ∀ a : ℕ, ∑ s ∈ Finset.range a, ∑ kk ∈ Finset.range b, f (b * s + kk) = ∑ k ∈ Finset.range (b * a), f k
  | 0 => by simp
  | a + 1 => by
    rw [Finset.sum_range_succ, sum_range_runs f b a, Nat.mul_succ, Finset.sum_range_add]

/-- The eight runs of 512 make up the contraction over 4096. -/
theorem sum_run512 (X Wμ Wρ Wε : Mat) (i j : ℕ) :
    ∑ s ∈ Finset.range 8, run512 X Wμ Wρ Wε i j s = ∑ k ∈ Finset.range 4096, term X Wμ Wρ Wε i j k := by
  have h := sum_range_runs (fun k => term X Wμ Wρ Wε i j k) 512 8
  rw [← h]
  refine Finset.sum_congr rfl fun s _ => ?_
  unfold run512
  exact (Finset.sum_range (fun kk => term X Wμ Wρ Wε i j (512 * s + kk))).symm

end Cert.BayesLinear

end
-- ==== Proof.Payload.lean ====
/-
  The three values the kernel body stores, read at an index on the extended reals.

  The first store clears the accumulator; the second adds to it one 512-wide run of the contraction, the tile of
  sampled weights rebuilt in place from its three parameter tiles (a change of float format is the identity here, and the
  matrix product into a zero accumulator is the plain sum of products); the third, at the last step, adds the sampled bias row
  to every row of the accumulator.
-/
import proofs.«125743_j19112604467219_1_alg».proof.Proof.Gen.KernelIdeal.Skeleton
import proofs.«125743_j19112604467219_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.BayesLinear

/-- The cleared accumulator is zero everywhere. -/
theorem pay1_apply (y : S1024x512.Idx) : k0_pay1 (F := Ideal) y = 0 := by
  unfold k0_pay1
  simp only [shapeCast_self]
  exact Ideal.ofBits_zero_f32

theorem lhs_dot_0 (i : S1024x512.Idx) (q : dot_S1024x512_S512x512_S1024x512_1_1_0_0_n_n.contr.Idx) :
    (dot_S1024x512_S512x512_S1024x512_1_1_0_0_n_n.lhsIdx i q 0).val = (i 0).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl
theorem lhs_dot_1 (i : S1024x512.Idx) (q : dot_S1024x512_S512x512_S1024x512_1_1_0_0_n_n.contr.Idx) :
    (dot_S1024x512_S512x512_S1024x512_1_1_0_0_n_n.lhsIdx i q 1).val = (q ⟨0, by decide⟩).val :=
  dot_S1024x512_S512x512_S1024x512_1_1_0_0_n_n.lhsIdx_val_of_single rfl i q
theorem rhs_dot_0 (i : S1024x512.Idx) (q : dot_S1024x512_S512x512_S1024x512_1_1_0_0_n_n.contr.Idx) :
    (dot_S1024x512_S512x512_S1024x512_1_1_0_0_n_n.rhsIdx i q 0).val = (i 1).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl
theorem rhs_dot_1 (i : S1024x512.Idx) (q : dot_S1024x512_S512x512_S1024x512_1_1_0_0_n_n.contr.Idx) :
    (dot_S1024x512_S512x512_S1024x512_1_1_0_0_n_n.rhsIdx i q 1).val = (q ⟨0, by decide⟩).val :=
  dot_S1024x512_S512x512_S1024x512_1_1_0_0_n_n.rhsIdx_val_of_single rfl i q

/-- The tile product into a zero accumulator, at row `p` and column `q`: the sum over the tile's 512 input features of the
    left tile's row `p` times the right tile's row `q`. -/
theorem tile_dot_apply (l : FVec Ideal S1024x512 .bf16) (r : FVec Ideal S512x512 .bf16) (p : Fin 1024) (q : Fin 512) :
    FloatOps.matmul dot_S1024x512_S512x512_S1024x512_1_1_0_0_n_n none l r (constant S1024x512 .f32 0x00000000#32) (ix2 p q)
      = ∑ kk : Fin 512, l (ix2 p kk) * r (ix2 q kk) := by
  rw [Ideal.matmul_constant_zero_apply, ← Equiv.sum_comp (ValueIdx.contrEquiv1 dot_S1024x512_S512x512_S1024x512_1_1_0_0_n_n 512 rfl rfl).symm]
  refine Finset.sum_congr rfl fun k _ => ?_
  have hk := ValueIdx.contrEquiv1_symm_val dot_S1024x512_S512x512_S1024x512_1_1_0_0_n_n 512 rfl rfl k
  have el : dot_S1024x512_S512x512_S1024x512_1_1_0_0_n_n.lhsIdx (ix2 p q) ((ValueIdx.contrEquiv1 dot_S1024x512_S512x512_S1024x512_1_1_0_0_n_n 512 rfl rfl).symm k) = ix2 p k := funext fun a => Fin.ext (by
    match a with
    | ⟨0, _⟩ => exact lhs_dot_0 _ _
    | ⟨1, _⟩ => exact (lhs_dot_1 _ _).trans hk)
  have er : dot_S1024x512_S512x512_S1024x512_1_1_0_0_n_n.rhsIdx (ix2 p q) ((ValueIdx.contrEquiv1 dot_S1024x512_S512x512_S1024x512_1_1_0_0_n_n 512 rfl rfl).symm k) = ix2 q k := funext fun a => Fin.ext (by
    match a with
    | ⟨0, _⟩ => exact rhs_dot_0 _ _
    | ⟨1, _⟩ => exact (rhs_dot_1 _ _).trans hk)
  rw [el, er]

/-- The accumulating store: what the accumulator held plus one run of the contraction over the rebuilt weight tile. -/
theorem pay2_apply (wρ wμ wε : Vec Ideal S512x512 .f32) (x acc : Vec Ideal S1024x512 .f32) (p : Fin 1024) (q : Fin 512) :
    k0_pay2 (F := Ideal) wρ wμ wε x acc (ix2 p q)
      = acc (ix2 p q) + ∑ kk : Fin 512, x (ix2 p kk) * sample (wμ (ix2 q kk)) (wρ (ix2 q kk)) (wε (ix2 q kk)) := by
  unfold k0_pay2
  simp only [shapeCast_self]
  refine (addf_apply _ _ _).trans ?_
  refine congrArg (acc (ix2 p q) + ·) ?_
  refine (tile_dot_apply _ _ p q).trans ?_
  rfl

/-- The closing store: the accumulator plus the sampled bias of the column. -/
theorem pay3_apply (bρ bμ bε : Vec Ideal S1x512 .f32) (acc : Vec Ideal S1024x512 .f32) (p : Fin 1024) (q : Fin 512) :
    k0_pay3 (F := Ideal) bρ bμ bε acc (ix2 p q)
      = acc (ix2 p q) + sample (bμ (ix2 0 q)) (bρ (ix2 0 q)) (bε (ix2 0 q)) := by
  unfold k0_pay3
  simp only [shapeCast_self]
  refine (addf_apply _ _ _).trans ?_
  refine congrArg (acc (ix2 p q) + ·) ?_
  refine (broadcastTo_apply _ broadcasts_S1x512_S1024x512 (ix2 p q) (ix2 0 q) ?_).trans ?_
  · intro a
    match a with
    | ⟨0, _⟩ => show (0 : ℕ) = if (1 : ℕ) = 1 then 0 else p.val; rw [if_pos rfl]
    | ⟨1, _⟩ => show q.val = if (512 : ℕ) = 1 then 0 else q.val; rw [if_neg (by decide)]
  · rfl

end Cert.KernelIdeal.Pay

end
-- ==== Proof.Pieces.lean ====
/-
  What each of the body's three control cases leaves behind, as the stored values themselves.

  At the first step of a run the accumulator is cleared and then takes the step's product; at a middle step it takes the
  product on top of what the step before left; at the last step it does the same and the output tile is the accumulator
  plus the bias row. Every load reads a whole buffer, so each case's result is the stored value of the loaded tiles.
-/
import proofs.«125743_j19112604467219_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- First step of a run: the accumulator ends at the step's product over the cleared tile. -/
theorem acc_first (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .f32) (harg10 : arg10.IsWhole) (arg11 : Memref sig .tc .vmem S1024x512 .f32) (harg11 : arg11.IsWhole) (hc0 : cond0_0 i) (hc1 : ¬cond0_1 i)
    (x0 : Vec F S1024x512 .f32) (x1 : Vec F S512x512 .f32) (x2 : Vec F S512x512 .f32) (x3 : Vec F S512x512 .f32) (x4 : Vec F S1x512 .f32) (x5 : Vec F S1x512 .f32) (x6 : Vec F S1x512 .f32) :
    sout0_A_0 c i arg3 harg3 arg4 harg4 arg5 harg5 arg6 harg6 arg7 harg7 arg8 harg8 arg9 harg9 arg10 harg10 arg11 harg11 hc0 hc1 x0 x1 x2 x3 x4 x5 x6 = k0_pay2 x2 x1 x3 x0 k0_pay1 := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S1024x512) hz, View.readCov_unit_zero (S := S1024x512) _ hz]
  simp only [View.readAt_eq_ld, harg3.read_unread, harg4.read_unread, harg5.read_unread, harg6.read_unread, View.ld_unit_zero (S := S1024x512) hz, View.ld_unit_zero (S := S512x512) hz]

/-- Middle step: the accumulator ends at the step's product over what the step before left (`prev`). -/
theorem acc_middle (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .f32) (harg10 : arg10.IsWhole) (arg11 : Memref sig .tc .vmem S1024x512 .f32) (harg11 : arg11.IsWhole) (hc0 : ¬cond0_0 i) (hc1 : ¬cond0_1 i)
    (x0 : Vec F S1024x512 .f32) (x1 : Vec F S512x512 .f32) (x2 : Vec F S512x512 .f32) (x3 : Vec F S512x512 .f32) (x4 : Vec F S1x512 .f32) (x5 : Vec F S1x512 .f32) (x6 : Vec F S1x512 .f32) (prev : Vec F S1024x512 .f32) :
    sout0_B_0 c i arg3 harg3 arg4 harg4 arg5 harg5 arg6 harg6 arg7 harg7 arg8 harg8 arg9 harg9 arg10 harg10 arg11 harg11 hc0 hc1 x0 x1 x2 x3 x4 x5 x6 prev = k0_pay2 x2 x1 x3 x0 prev := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 x4 x5 x6 prev)]
  unfold kernelRun0_B
  dsimp only
  sl_unfold_words
  rw [View.canon_unit_zero (S := S1024x512) hz]
  simp only [View.readAt_eq_ld, harg3.read_unread, harg4.read_unread, harg5.read_unread, harg6.read_unread, harg11.read_unread, View.ld_unit_zero (S := S1024x512) hz, View.ld_unit_zero (S := S512x512) hz]

/-- Last step: the accumulator likewise, -/
theorem acc_last (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .f32) (harg10 : arg10.IsWhole) (arg11 : Memref sig .tc .vmem S1024x512 .f32) (harg11 : arg11.IsWhole) (hc0 : ¬cond0_0 i) (hc1 : cond0_1 i)
    (x0 : Vec F S1024x512 .f32) (x1 : Vec F S512x512 .f32) (x2 : Vec F S512x512 .f32) (x3 : Vec F S512x512 .f32) (x4 : Vec F S1x512 .f32) (x5 : Vec F S1x512 .f32) (x6 : Vec F S1x512 .f32) (prev : Vec F S1024x512 .f32) :
    sout0_C_0 c i arg3 harg3 arg4 harg4 arg5 harg5 arg6 harg6 arg7 harg7 arg8 harg8 arg9 harg9 arg10 harg10 arg11 harg11 hc0 hc1 x0 x1 x2 x3 x4 x5 x6 prev = k0_pay2 x2 x1 x3 x0 prev := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 x0 x1 x2 x3 x4 x5 x6 prev)]
  unfold kernelRun0_C
  dsimp only
  sl_unfold_words
  rw [View.canon_unit_zero (S := S1024x512) hz]
  simp only [View.readAt_eq_ld, harg3.read_unread, harg4.read_unread, harg5.read_unread, harg6.read_unread, harg11.read_unread, View.ld_unit_zero (S := S1024x512) hz, View.ld_unit_zero (S := S512x512) hz]

/-- and the output tile is that accumulator plus the bias row. -/
theorem out_last (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .f32) (harg10 : arg10.IsWhole) (arg11 : Memref sig .tc .vmem S1024x512 .f32) (harg11 : arg11.IsWhole) (hc0 : ¬cond0_0 i) (hc1 : cond0_1 i)
    (x0 : Vec F S1024x512 .f32) (x1 : Vec F S512x512 .f32) (x2 : Vec F S512x512 .f32) (x3 : Vec F S512x512 .f32) (x4 : Vec F S1x512 .f32) (x5 : Vec F S1x512 .f32) (x6 : Vec F S1x512 .f32) (prev : Vec F S1024x512 .f32) :
    out0_C_7 c i arg3 harg3 arg4 harg4 arg5 harg5 arg6 harg6 arg7 harg7 arg8 harg8 arg9 harg9 arg10 harg10 arg11 harg11 hc0 hc1 x0 x1 x2 x3 x4 x5 x6 prev = k0_pay3 x5 x4 x6 (k0_pay2 x2 x1 x3 x0 prev) := by
  unfold out0_C_7
  rw [View.read_writes_eq_canon _ _ _ (cover0_C_7 c i arg3 harg3 arg4 harg4 arg5 harg5 arg6 harg6 arg7 harg7 arg8 harg8 arg9 harg9 arg10 harg10 arg11 harg11 hc0 hc1 x0 x1 x2 x3 x4 x5 x6 prev)]
  unfold kernelRun0_C
  dsimp only
  sl_unfold_words
  rw [View.canon_unit_zero (S := S1024x512) hz, View.readCov_unit_zero (S := S1024x512) _ hz]
  simp only [View.readAt_eq_ld, harg3.read_unread, harg4.read_unread, harg5.read_unread, harg6.read_unread, harg7.read_unread, harg8.read_unread, harg9.read_unread, harg11.read_unread, View.ld_unit_zero (S := S1024x512) hz, View.ld_unit_zero (S := S512x512) hz, View.ld_unit_zero (S := S1x512) hz]

end Cert.KernelIdeal.Pieces

end
-- ==== Proof.Blocks.lean ====
/-
  The tiles the pipeline hands the body at a grid point, read off the argument arrays.

  Grid point `t` is step `t % 8` of the contraction for row tile `t / 64` and column tile `(t / 8) % 8`: the activations'
  tile is rows `1024 · (t / 64) …` and input features `512 · (t % 8) …`; the three weight parameters' tiles are output
  features `512 · ((t / 8) % 8) …` and the same input features; the three bias parameters' tiles are those output features of
  the length-4096 vectors, which the program first views as one-row matrices.
-/
import proofs.«125743_j19112604467219_1_alg».proof.Proof.Gen.KernelIdeal.Frame
import proofs.«125743_j19112604467219_1_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.StableHlo Cert.BayesLinear

variable (m : (ℓ : Loc nD τ sig) → Buf (Elt Ideal) ℓ)

/-- Where each window's tile sits, decided once over the 256 grid points. -/
theorem idx_facts : ∀ t : Fin cfg0.N,
    win0_0.index t (0 : Fin 2) = t.val / 64 ∧ win0_0.index t (1 : Fin 2) = t.val % 8
    ∧ win0_1.index t (0 : Fin 2) = t.val / 8 % 8 ∧ win0_1.index t (1 : Fin 2) = t.val % 8
    ∧ win0_2.index t (0 : Fin 2) = t.val / 8 % 8 ∧ win0_2.index t (1 : Fin 2) = t.val % 8
    ∧ win0_3.index t (0 : Fin 2) = t.val / 8 % 8 ∧ win0_3.index t (1 : Fin 2) = t.val % 8
    ∧ win0_4.index t (0 : Fin 2) = 0 ∧ win0_4.index t (1 : Fin 2) = t.val / 8 % 8
    ∧ win0_5.index t (0 : Fin 2) = 0 ∧ win0_5.index t (1 : Fin 2) = t.val / 8 % 8
    ∧ win0_6.index t (0 : Fin 2) = 0 ∧ win0_6.index t (1 : Fin 2) = t.val / 8 % 8
    ∧ win0_7.index t (0 : Fin 2) = t.val / 64 ∧ win0_7.index t (1 : Fin 2) = t.val / 8 % 8 :=
  (by decide +kernel : ∀ t : Fin grid0.N, _)

/-- The activations' tile. -/
theorem x_tile (c : Dev nD) (t : Fin cfg0.N) (p : Fin 1024) (kk : Fin 512) :
    (iblk m c 0 t : Vec Ideal S1024x512 .f32) (ix2 p kk)
      = at2 (m ((c : Thread nD τ).loc main_arg0)) (1024 * (t.val / 64) + p.val) (512 * (t.val % 8) + kk.val) := by
  have ht : t.val < 256 := lt_of_lt_of_eq t.isLt N_0
  have hf := idx_facts t
  unfold at2
  rw [dif_pos ⟨by omega, by omega⟩]
  unfold iblk
  rw [View.read_apply]
  show V m c main_arg0 _ = _
  rw [V_main_arg0]
  refine congrArg _ (funext fun a => Fin.ext ?_)
  match a with
  | ⟨0, _⟩ => show win0_0.index t 0 * 1024 + 1 * p.val = 1024 * (t.val / 64) + p.val; rw [hf.1]; omega
  | ⟨1, _⟩ => show win0_0.index t 1 * 512 + 1 * kk.val = 512 * (t.val % 8) + kk.val; rw [hf.2.1]; omega

/-- The one-row view of the bias mean. -/
theorem bμ_view (c : Dev nD) :
    (V m c main_v0 : S1x4096.Idx → EReal) = shapeCast S1x4096 (m ((c : Thread nD τ).loc main_arg3)) shapeCasts_S4096_S1x4096 := by
  dsimp only [Gen.V, Gen.hostOps0]; after_results; rfl

/-- The bias mean's tile. -/
theorem bμ_tile (c : Dev nD) (t : Fin cfg0.N) (q : Fin 512) :
    (iblk m c 4 t : Vec Ideal S1x512 .f32) (ix2 0 q)
      = at1 (m ((c : Thread nD τ).loc main_arg3)) (512 * (t.val / 8 % 8) + q.val) := by
  have ht : t.val < 256 := lt_of_lt_of_eq t.isLt N_0
  have hf := idx_facts t
  unfold at1
  rw [dif_pos (by omega)]
  unfold iblk
  rw [View.read_apply]
  show V m c main_v0 _ = _
  rw [bμ_view]
  refine shapeCast_apply _ _ _ _ ?_
  rw [Shape.rowMajor_val_two]
  show (S4096.rowMajor (ix1 (⟨512 * (t.val / 8 % 8) + q.val, by omega⟩ : Fin 4096))).val
    = (win0_4.index t 0 * 1 + 1 * 0) * 4096 + (win0_4.index t 1 * 512 + 1 * q.val)
  rw [Shape.rowMajor_val_one, hf.2.2.2.2.2.2.2.2.1, hf.2.2.2.2.2.2.2.2.2.1]
  show 512 * (t.val / 8 % 8) + q.val = _
  omega

/-- The weight mean's tile. -/
theorem wμ_tile (c : Dev nD) (t : Fin cfg0.N) (q : Fin 512) (kk : Fin 512) :
    (iblk m c 1 t : Vec Ideal S512x512 .f32) (ix2 q kk)
      = at2 (m ((c : Thread nD τ).loc main_arg1)) (512 * (t.val / 8 % 8) + q.val) (512 * (t.val % 8) + kk.val) := by
  have ht : t.val < 256 := lt_of_lt_of_eq t.isLt N_0
  have hf := idx_facts t
  unfold at2
  rw [dif_pos ⟨by omega, by omega⟩]
  unfold iblk
  rw [View.read_apply]
  show V m c main_arg1 _ = _
  rw [V_main_arg1]
  refine congrArg _ (funext fun a => Fin.ext ?_)
  match a with
  | ⟨0, _⟩ => show win0_1.index t 0 * 512 + 1 * q.val = 512 * (t.val / 8 % 8) + q.val; rw [hf.2.2.1]; omega
  | ⟨1, _⟩ => show win0_1.index t 1 * 512 + 1 * kk.val = 512 * (t.val % 8) + kk.val; rw [hf.2.2.2.1]; omega

/-- The weight scale parameter's tile. -/
theorem wρ_tile (c : Dev nD) (t : Fin cfg0.N) (q : Fin 512) (kk : Fin 512) :
    (iblk m c 2 t : Vec Ideal S512x512 .f32) (ix2 q kk)
      = at2 (m ((c : Thread nD τ).loc main_arg2)) (512 * (t.val / 8 % 8) + q.val) (512 * (t.val % 8) + kk.val) := by
  have ht : t.val < 256 := lt_of_lt_of_eq t.isLt N_0
  have hf := idx_facts t
  unfold at2
  rw [dif_pos ⟨by omega, by omega⟩]
  unfold iblk
  rw [View.read_apply]
  show V m c main_arg2 _ = _
  rw [V_main_arg2]
  refine congrArg _ (funext fun a => Fin.ext ?_)
  match a with
  | ⟨0, _⟩ => show win0_2.index t 0 * 512 + 1 * q.val = 512 * (t.val / 8 % 8) + q.val; rw [hf.2.2.2.2.1]; omega
  | ⟨1, _⟩ => show win0_2.index t 1 * 512 + 1 * kk.val = 512 * (t.val % 8) + kk.val; rw [hf.2.2.2.2.2.1]; omega

/-- The weight noise's tile. -/
theorem wε_tile (c : Dev nD) (t : Fin cfg0.N) (q : Fin 512) (kk : Fin 512) :
    (iblk m c 3 t : Vec Ideal S512x512 .f32) (ix2 q kk)
      = at2 (m ((c : Thread nD τ).loc main_arg5)) (512 * (t.val / 8 % 8) + q.val) (512 * (t.val % 8) + kk.val) := by
  have ht : t.val < 256 := lt_of_lt_of_eq t.isLt N_0
  have hf := idx_facts t
  unfold at2
  rw [dif_pos ⟨by omega, by omega⟩]
  unfold iblk
  rw [View.read_apply]
  show V m c main_arg5 _ = _
  rw [V_main_arg5]
  refine congrArg _ (funext fun a => Fin.ext ?_)
  match a with
  | ⟨0, _⟩ => show win0_3.index t 0 * 512 + 1 * q.val = 512 * (t.val / 8 % 8) + q.val; rw [hf.2.2.2.2.2.2.1]; omega
  | ⟨1, _⟩ => show win0_3.index t 1 * 512 + 1 * kk.val = 512 * (t.val % 8) + kk.val; rw [hf.2.2.2.2.2.2.2.1]; omega

/-- The one-row view of the bias scale parameter. -/
theorem bρ_view (c : Dev nD) :
    (V m c main_v1 : S1x4096.Idx → EReal) = shapeCast S1x4096 (m ((c : Thread nD τ).loc main_arg4)) shapeCasts_S4096_S1x4096 := by
  dsimp only [Gen.V, Gen.hostOps0]; after_results; rfl

/-- The bias scale parameter's tile. -/
theorem bρ_tile (c : Dev nD) (t : Fin cfg0.N) (q : Fin 512) :
    (iblk m c 5 t : Vec Ideal S1x512 .f32) (ix2 0 q)
      = at1 (m ((c : Thread nD τ).loc main_arg4)) (512 * (t.val / 8 % 8) + q.val) := by
  have ht : t.val < 256 := lt_of_lt_of_eq t.isLt N_0
  have hf := idx_facts t
  unfold at1
  rw [dif_pos (by omega)]
  unfold iblk
  rw [View.read_apply]
  show V m c main_v1 _ = _
  rw [bρ_view]
  refine shapeCast_apply _ _ _ _ ?_
  rw [Shape.rowMajor_val_two]
  show (S4096.rowMajor (ix1 (⟨512 * (t.val / 8 % 8) + q.val, by omega⟩ : Fin 4096))).val
    = (win0_5.index t 0 * 1 + 1 * 0) * 4096 + (win0_5.index t 1 * 512 + 1 * q.val)
  rw [Shape.rowMajor_val_one, hf.2.2.2.2.2.2.2.2.2.2.1, hf.2.2.2.2.2.2.2.2.2.2.2.1]
  show 512 * (t.val / 8 % 8) + q.val = _
  omega

/-- The one-row view of the bias noise. -/
theorem bε_view (c : Dev nD) :
    (V m c main_v2 : S1x4096.Idx → EReal) = shapeCast S1x4096 (m ((c : Thread nD τ).loc main_arg6)) shapeCasts_S4096_S1x4096 := by
  dsimp only [Gen.V, Gen.hostOps0]; after_results; rfl

/-- The bias noise's tile. -/
theorem bε_tile (c : Dev nD) (t : Fin cfg0.N) (q : Fin 512) :
    (iblk m c 6 t : Vec Ideal S1x512 .f32) (ix2 0 q)
      = at1 (m ((c : Thread nD τ).loc main_arg6)) (512 * (t.val / 8 % 8) + q.val) := by
  have ht : t.val < 256 := lt_of_lt_of_eq t.isLt N_0
  have hf := idx_facts t
  unfold at1
  rw [dif_pos (by omega)]
  unfold iblk
  rw [View.read_apply]
  show V m c main_v2 _ = _
  rw [bε_view]
  refine shapeCast_apply _ _ _ _ ?_
  rw [Shape.rowMajor_val_two]
  show (S4096.rowMajor (ix1 (⟨512 * (t.val / 8 % 8) + q.val, by omega⟩ : Fin 4096))).val
    = (win0_6.index t 0 * 1 + 1 * 0) * 4096 + (win0_6.index t 1 * 512 + 1 * q.val)
  rw [Shape.rowMajor_val_one, hf.2.2.2.2.2.2.2.2.2.2.2.2.1, hf.2.2.2.2.2.2.2.2.2.2.2.2.2.1]
  show 512 * (t.val / 8 % 8) + q.val = _
  omega

end Cert.KernelIdeal.Blocks

end
-- ==== Proof.Fold.lean ====
/-
  The accumulator after every grid point, as a partial sum of the contraction.

  A run of eight consecutive grid points shares one output tile. Its first point clears the accumulator and adds the first
  run of 512 products; each later point adds the next. So after the point at offset `j` in its run the accumulator
  holds, at row `p` and column `q` of the tile, the sum of the runs `0 … j` of the contraction for that row and column —
  a statement about sums in a commutative monoid, needing no finiteness of the entries.
-/
import proofs.«125743_j19112604467219_1_alg».proof.Proof.Gen.KernelIdeal.Value
import proofs.«125743_j19112604467219_1_alg».proof.Proof.Spec
import proofs.«125743_j19112604467219_1_alg».proof.Proof.Payload
import proofs.«125743_j19112604467219_1_alg».proof.Proof.Pieces
import proofs.«125743_j19112604467219_1_alg».proof.Proof.Blocks
import Idealize.ShloMosaic.Lib.Pipeline.Value

set_option maxRecDepth 16384

noncomputable section

namespace Cert.KernelIdeal.Fold

open Cert.KernelIdeal Cert.KernelIdeal.Gen Idealize.ShloMosaic Idealize.ShloMosaic.TcCoe Idealize.ShloMosaic.ValueIdx Idealize.SL.Sem
open Cert.BayesLinear

variable (m : (ℓ : Loc nD τ sig) → Buf (Elt Ideal) ℓ)

/-- The activations, the three weight parameters and the three bias parameters as the program was launched with them. -/
abbrev aX (c : Dev nD) : Mat := m ((c : Thread nD τ).loc main_arg0)
abbrev aWμ (c : Dev nD) : Mat := m ((c : Thread nD τ).loc main_arg1)
abbrev aWρ (c : Dev nD) : Mat := m ((c : Thread nD τ).loc main_arg2)
abbrev abμ (c : Dev nD) : Row := m ((c : Thread nD τ).loc main_arg3)
abbrev abρ (c : Dev nD) : Row := m ((c : Thread nD τ).loc main_arg4)
abbrev aWε (c : Dev nD) : Mat := m ((c : Thread nD τ).loc main_arg5)
abbrev abε (c : Dev nD) : Row := m ((c : Thread nD τ).loc main_arg6)

/-- The tiles at a grid point, at their literal types. -/
abbrev xT (c : Dev nD) (n : ℕ) (hb : n < cfg0.N) : Vec Ideal S1024x512 .f32 := iblk m c 0 (⟨n, hb⟩ : Fin cfg0.N)
abbrev wμT (c : Dev nD) (n : ℕ) (hb : n < cfg0.N) : Vec Ideal S512x512 .f32 := iblk m c 1 (⟨n, hb⟩ : Fin cfg0.N)
abbrev wρT (c : Dev nD) (n : ℕ) (hb : n < cfg0.N) : Vec Ideal S512x512 .f32 := iblk m c 2 (⟨n, hb⟩ : Fin cfg0.N)
abbrev wεT (c : Dev nD) (n : ℕ) (hb : n < cfg0.N) : Vec Ideal S512x512 .f32 := iblk m c 3 (⟨n, hb⟩ : Fin cfg0.N)

/-- What grid point `n` adds to the accumulator: its run of the contraction, for the tile's row and column. -/
def addend (c : Dev nD) (n : ℕ) (y : S1024x512.Idx) : EReal :=
  run512 (aX m c) (aWμ m c) (aWρ m c) (aWε m c) (1024 * (n / 64) + (y 0).val) (512 * (n / 8 % 8) + (y 1).val) (n % 8)

/-- The accumulating store at a grid point adds that point's run. -/
theorem step_apply (c : Dev nD) (n : ℕ) (hb : n < cfg0.N) (acc : Vec Ideal S1024x512 .f32) (y : S1024x512.Idx) :
    k0_pay2 (F := Ideal) (wρT m c n hb) (wμT m c n hb) (wεT m c n hb) (xT m c n hb) acc y = acc y + addend m c n y := by
  obtain ⟨p, q, rfl⟩ : ∃ (p : Fin 1024) (q : Fin 512), y = ix2 p q := ⟨y 0, y 1, eq_ix2 y⟩
  refine (Pay.pay2_apply _ _ _ _ _ p q).trans ?_
  refine congrArg (acc (ix2 p q) + ·) ?_
  unfold addend run512
  refine Finset.sum_congr rfl fun kk _ => ?_
  unfold term weight
  have e0 : xT m c n hb (ix2 p kk) = at2 (aX m c) (1024 * (n / 64) + (ix2 p q 0).val) (512 * (n % 8) + kk.val) :=
    Blocks.x_tile m c (⟨n, hb⟩ : Fin cfg0.N) p kk
  have e1 : wμT m c n hb (ix2 q kk) = at2 (aWμ m c) (512 * (n / 8 % 8) + (ix2 p q 1).val) (512 * (n % 8) + kk.val) :=
    Blocks.wμ_tile m c (⟨n, hb⟩ : Fin cfg0.N) q kk
  have e2 : wρT m c n hb (ix2 q kk) = at2 (aWρ m c) (512 * (n / 8 % 8) + (ix2 p q 1).val) (512 * (n % 8) + kk.val) :=
    Blocks.wρ_tile m c (⟨n, hb⟩ : Fin cfg0.N) q kk
  have e3 : wεT m c n hb (ix2 q kk) = at2 (aWε m c) (512 * (n / 8 % 8) + (ix2 p q 1).val) (512 * (n % 8) + kk.val) :=
    Blocks.wε_tile m c (⟨n, hb⟩ : Fin cfg0.N) q kk
  rw [e0, e1, e2, e3]

/-- At the first point of a run the carried accumulator is the cleared tile plus the point's run. -/
theorem scAt_first (c : Dev nD) (n : ℕ) (hb : n < cfg0.N) (h0 : n % 8 = 0) (acc : Vec Ideal S1024x512 .f32) :
    Value.scAt0_0 m c n hb acc = k0_pay2 (F := Ideal) (wρT m c n hb) (wμT m c n hb) (wεT m c n hb) (xT m c n hb) (k0_pay1 (F := Ideal)) := by
  unfold Value.scAt0_0
  rw [dif_pos h0, dif_neg (by omega)]
  exact Pieces.acc_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N))

/-- At every later point it is what the point before left plus the point's run. -/
theorem scAt_later (c : Dev nD) (n : ℕ) (hb : n < cfg0.N) (h0 : ¬n % 8 = 0) (acc : Vec Ideal S1024x512 .f32) :
    Value.scAt0_0 m c n hb acc = k0_pay2 (F := Ideal) (wρT m c n hb) (wμT m c n hb) (wεT m c n hb) (xT m c n hb) acc := by
  unfold Value.scAt0_0
  rw [dif_neg h0]
  by_cases h1 : n % 8 = 7
  · rw [dif_pos h1]
    exact Pieces.acc_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc
  · rw [dif_neg h1]
    exact Pieces.acc_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc

/-- THE ACCUMULATOR after grid point `t`: the sum of the runs its run of points has gone through so far. -/
theorem acc_after (c : Dev nD) (t : Fin cfg0.N) (y : S1024x512.Idx) :
    (outsAt0 m c t.val t.isLt).2 y = 0 + ∑ s ∈ Finset.range (t.val % 8 + 1), addend m c (8 * (t.val / 8) + s) y := by
  rw [Value.soutsAt0_0_eq m c t]
  refine Pipeline.accAt_add_apply _ _ (fun _ => (0 : EReal)) (addend m c) (8 * (t.val / 8)) 7 ?_ ?_ (t.val % 8) (by omega) _ y
  · intro h i
    show Value.scAt0_0 m c _ h _ i = _
    rw [scAt_first m c _ h (by omega), step_apply m c _ h _ i]
    refine congrArg (· + addend m c (8 * (t.val / 8)) i) ?_
    exact Pay.pay1_apply i
  · intro n h acc i hlt hle
    rw [scAt_later m c n h (by omega) acc]
    exact step_apply m c n h acc i

end Cert.KernelIdeal.Fold

end
-- ==== Proof.Final.lean ====
/-
  The kernel's result array is the layer function of its arguments.

  The output tile is written back only at the last point of each run of eight. There the accumulator holds all eight
  runs of the contraction — the whole sum over 4096 — for the tile's rows and columns, and the body adds the sampled bias of
  each column. The 32 tiles written back tile the [4096, 4096] result, so the array ends holding the layer everywhere.
-/
import proofs.«125743_j19112604467219_1_alg».proof.Proof.Fold

set_option maxRecDepth 16384

noncomputable section

namespace Cert.KernelIdeal.Final

open Cert.KernelIdeal Cert.KernelIdeal.Gen Idealize.ShloMosaic Idealize.ShloMosaic.TcCoe Idealize.ShloMosaic.ValueIdx Idealize.SL.Sem
open Idealize.ShloMosaic.Pipeline (Dat)
open Cert.BayesLinear Cert.KernelIdeal.Fold

variable (m : (ℓ : Loc nD τ sig) → Buf (Elt Ideal) ℓ) (ρ : Dev nD → PrngReg)

/-- The layer of the launched arguments, as contents of the result array. -/
abbrev result (c : Dev nD) : Buf (Elt Ideal) ((c : Thread nD τ).loc main_v3) :=
  layer (aX m c) (aWμ m c) (aWρ m c) (abμ m c) (abρ m c) (aWε m c) (abε m c)

/-- The bias parameters' tiles at a grid point, at their literal type. -/
abbrev bμT (c : Dev nD) (t : Fin cfg0.N) : Vec Ideal S1x512 .f32 := iblk m c 4 t
abbrev bρT (c : Dev nD) (t : Fin cfg0.N) : Vec Ideal S1x512 .f32 := iblk m c 5 t
abbrev bεT (c : Dev nD) (t : Fin cfg0.N) : Vec Ideal S1x512 .f32 := iblk m c 6 t

/-- At the last point of a run, the accumulating store's value IS the accumulator after that point. -/
theorem acc_at_last (c : Dev nD) (t : Fin cfg0.N) (h7 : t.val % 8 = 7) :
    k0_pay2 (F := Ideal) (iblk m c 2 t) (iblk m c 1 t) (iblk m c 3 t) (iblk m c 0 t)
        (outsAt0 m c (t.val - 1) (Nat.lt_of_le_of_lt (Nat.sub_le _ _) t.isLt)).2
      = (outsAt0 m c t.val t.isLt).2 := by
  rw [outsAt0_C m c t (by omega) h7]
  dsimp only
  exact (Pieces.acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => (by omega : ¬t.val % 8 = 0) ((hcond0_0 t).mp h)) ((hcond0_1 t).mpr h7) (iblk m c 0 t) (iblk m c 1 t) (iblk m c 2 t) (iblk m c 3 t) (iblk m c 4 t) (iblk m c 5 t) (iblk m c 6 t)
    (outsAt0 m c (t.val - 1) (Nat.lt_of_le_of_lt (Nat.sub_le _ _) t.isLt)).2).symm

/-- The output tile the last point of a run stores: the whole contraction plus the bias, for the tile's row and column. -/
theorem out_tile (c : Dev nD) (t : Fin cfg0.N) (h7 : t.val % 8 = 7) (p : Fin 1024) (q : Fin 512) :
    k0_pay3 (F := Ideal) (bρT m c t) (bμT m c t) (bεT m c t) (outsAt0 m c t.val t.isLt).2 (ix2 p q)
      = (∑ k ∈ Finset.range 4096, term (aX m c) (aWμ m c) (aWρ m c) (aWε m c) (1024 * (t.val / 64) + p.val) (512 * (t.val / 8 % 8) + q.val) k)
        + bias (abμ m c) (abρ m c) (abε m c) (512 * (t.val / 8 % 8) + q.val) := by
  have h8 : t.val % 8 + 1 = 8 := by omega
  rw [Pay.pay3_apply, acc_after m c t (ix2 p q), zero_add, h8]
  congr 1
  · rw [← sum_run512]
    refine Finset.sum_congr rfl fun s hs => ?_
    have hs' : s < 8 := Finset.mem_range.mp hs
    unfold addend
    show run512 _ _ _ _ (1024 * ((8 * (t.val / 8) + s) / 64) + p.val) (512 * ((8 * (t.val / 8) + s) / 8 % 8) + q.val) ((8 * (t.val / 8) + s) % 8) = _
    rw [show (8 * (t.val / 8) + s) / 64 = t.val / 64 by omega, show (8 * (t.val / 8) + s) / 8 % 8 = t.val / 8 % 8 by omega,
      show (8 * (t.val / 8) + s) % 8 = s by omega]
  · unfold bias
    have e0 : bμT m c t (ix2 0 q) = at1 (abμ m c) (512 * (t.val / 8 % 8) + q.val) := Blocks.bμ_tile m c t q
    have e1 : bρT m c t (ix2 0 q) = at1 (abρ m c) (512 * (t.val / 8 % 8) + q.val) := Blocks.bρ_tile m c t q
    have e2 : bεT m c t (ix2 0 q) = at1 (abε m c) (512 * (t.val / 8 % 8) + q.val) := Blocks.bε_tile m c t q
    rw [e0, e1, e2]

/-- WHAT A WRITE-BACK WRITES is its tile of the layer. -/
theorem flushed_eq (c : Dev nD) (t : Fin cfg0.N) (hf : (cfg0.win 7).flush t = true) :
    (dats m 0 c).flushed 7 t = ((cfg0.win 7).blk t).view.read (Elt Ideal) (result m c) := by
  have h7 : t.val % 8 = 7 := (flush0_7 t).mp hf
  have ht : t.val < 256 := lt_of_lt_of_eq t.isLt N_0
  have hx := Blocks.idx_facts t
  rw [Value.flushed7_C m c t (by omega) h7]
  funext j
  obtain ⟨p, q, rfl⟩ : ∃ (p : Fin 1024) (q : Fin 512), j = ix2 p q := ⟨j 0, j 1, eq_ix2 j⟩
  refine (congrFun (Pieces.out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => (by omega : ¬t.val % 8 = 0) ((hcond0_0 t).mp h)) ((hcond0_1 t).mpr h7) (iblk m c 0 t) (iblk m c 1 t) (iblk m c 2 t) (iblk m c 3 t) (iblk m c 4 t) (iblk m c 5 t) (iblk m c 6 t)
    (outsAt0 m c (t.val - 1) (Nat.lt_of_le_of_lt (Nat.sub_le _ _) t.isLt)).2) (ix2 p q)).trans ?_
  refine (congrArg (fun a => k0_pay3 (F := Ideal) (bρT m c t) (bμT m c t) (bεT m c t) a (ix2 p q)) (acc_at_last m c t h7)).trans ?_
  refine (out_tile m c t h7 p q).trans ?_
  rw [View.read_apply]
  have he : ((cfg0.win 7).blk t).view.emb (ix2 p q)
      = ix2 (⟨1024 * (t.val / 64) + p.val, by omega⟩ : Fin 4096) (⟨512 * (t.val / 8 % 8) + q.val, by omega⟩ : Fin 4096) :=
    funext fun a => Fin.ext (by
      match a with
      | ⟨0, _⟩ => show win0_7.index t 0 * 1024 + 1 * p.val = 1024 * (t.val / 64) + p.val; rw [hx.2.2.2.2.2.2.2.2.2.2.2.2.2.2.1]; omega
      | ⟨1, _⟩ => show win0_7.index t 1 * 512 + 1 * q.val = 512 * (t.val / 8 % 8) + q.val; rw [hx.2.2.2.2.2.2.2.2.2.2.2.2.2.2.2]; omega)
  rw [he]
  rfl

/-- An index of the result is in point `t`'s tile iff each coordinate is in the tile's range on its axis. -/
theorem mem_tile (t : Fin cfg0.N) (i : S4096x4096.Idx) :
    i ∈ ((cfg0.win 7).blk t).view.set ↔ ∀ a : Fin 2, win0_7.index t a * S1024x512.size a ≤ (i a).val ∧ (i a).val < win0_7.index t a * S1024x512.size a + S1024x512.size a := by
  show i ∈ ((View.whole main_v3).slice (win0_7.rect t)).set ↔ _
  rw [View.set_slice_whole, Rect.mem_set_unit]
  exact Iff.rfl

/-- Every entry of the result lies in the tile of the last point of some run. -/
theorem cover (i : S4096x4096.Idx) : ∃ t : Fin cfg0.N, (cfg0.win 7).flush t = true ∧ i ∈ ((cfg0.win 7).blk t).view.set := by
  have hi0 : (i 0).val < 4096 := (i 0).isLt
  have hi1 : (i 1).val < 4096 := (i 1).isLt
  have hN : cfg0.N = 256 := N_0
  let t : Fin cfg0.N := ⟨64 * ((i 0).val / 1024) + 8 * ((i 1).val / 512) + 7, by rw [hN]; omega⟩
  have htv : t.val = 64 * ((i 0).val / 1024) + 8 * ((i 1).val / 512) + 7 := rfl
  have hx := Blocks.idx_facts t
  refine ⟨t, (flush0_7 t).mpr (by omega), ?_⟩
  rw [mem_tile]
  intro a
  match a with
  | ⟨0, _⟩ =>
    show win0_7.index t 0 * 1024 ≤ (i 0).val ∧ (i 0).val < win0_7.index t 0 * 1024 + 1024
    rw [hx.2.2.2.2.2.2.2.2.2.2.2.2.2.2.1]; omega
  | ⟨1, _⟩ =>
    show win0_7.index t 1 * 512 ≤ (i 1).val ∧ (i 1).val < win0_7.index t 1 * 512 + 512
    rw [hx.2.2.2.2.2.2.2.2.2.2.2.2.2.2.2]; omega

/-- THE RESULT ARRAY after the run is the layer. -/
theorem final (c : Dev nD) : (dats m 0 c).arrAt 7 cfg0.N = result m c :=
  (dats m 0 c).arrAt_eq_of_cover 7 (result m c) (flushed_eq m c) cover

/-- The run, read: the result at the layer of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Final

end
-- ==== Proof.RefSide.lean ====
/-
  The reference program computes the layer function.

  Its eighteen host operations compose, index by index, to `(∑ k, x[i,k] · W[j,k]) + b[j]` with `W` and `b` the sampled
  weight and bias: the host's exponential, `log (1 + ·)` and contraction are the same extended-real functions as the
  kernel's, and the shared literal is the same binary value.
-/
import proofs.«125743_j19112604467219_1_alg».proof.Proof.Gen.ReferenceIdeal.Read
import proofs.«125743_j19112604467219_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.BayesLinear

theorem lidx_eq (a b k : Fin 4096) : lidx_main_v12 (ix2 a b) k = ix2 a k :=
  funext fun d => Fin.ext (by match d with | ⟨0, _⟩ => rfl | ⟨1, _⟩ => rfl)

theorem ridx_eq (a b k : Fin 4096) : ridx_main_v12 (ix2 a b) k = ix2 b k :=
  funext fun d => Fin.ext (by match d with | ⟨0, _⟩ => rfl | ⟨1, _⟩ => rfl)

theorem bidx_eq (a b : Fin 4096) : idx_main_v13 (idx_main_v14 (ix2 a b)) = ix1 b :=
  funext fun d => Fin.ext (by match d with | ⟨0, _⟩ => rfl)

/-- The reference's sampled weight matrix, entry by entry. -/
theorem weight_eq (x1 x2 x5 : Mat) (b k : Fin 4096) :
    val_main_v9 (F := Ideal) x1 x2 x5 (ix2 b k) = weight x1 x2 x5 b.val k.val := by
  rw [val_main_v9_apply, val_main_v8_apply, val_main_v3_apply, val_main_v2_apply, val_main_cst_apply, val_main_v1_apply,
    val_main_v0_apply]
  unfold weight sample epsC
  rw [at2_ix2, at2_ix2, at2_ix2]
  rfl

/-- The reference's sampled bias vector, entry by entry. -/
theorem bias_eq (x3 x4 x6 : Row) (b : Fin 4096) :
    val_main_v11 (F := Ideal) x3 x4 x6 (ix1 b) = bias x3 x4 x6 b.val := by
  rw [val_main_v11_apply, val_main_v10_apply, val_main_v7_apply, val_main_v6_apply, val_main_cst_0_apply, val_main_v5_apply,
    val_main_v4_apply]
  unfold bias sample epsC
  rw [at1_ix1, at1_ix1, at1_ix1]
  rfl

/-- The reference's result is the layer. -/
theorem ref_eq (x0 x1 x2 : Mat) (x3 x4 : Row) (x5 : Mat) (x6 : Row) :
    val_main_v15 (F := Ideal) x0 x1 x2 x3 x4 x5 x6 = layer x0 x1 x2 x3 x4 x5 x6 := by
  funext i
  obtain ⟨a, b, rfl⟩ : ∃ (a b : Fin 4096), i = ix2 a b := ⟨i 0, i 1, eq_ix2 i⟩
  rw [val_main_v15_apply, val_main_v12_apply, val_main_v14_apply, val_main_v13_apply, bidx_eq, bias_eq]
  unfold layer
  show (∑ k : Fin 4096, _) + _ = (∑ k ∈ Finset.range 4096, term x0 x1 x2 x5 a.val b.val k) + bias x3 x4 x6 b.val
  rw [Finset.sum_range (fun k => term x0 x1 x2 x5 a.val b.val k)]
  refine congrArg (· + bias x3 x4 x6 b.val) (Finset.sum_congr rfl fun k _ => ?_)
  rw [lidx_eq, ridx_eq, weight_eq]
  unfold term
  rw [at2_ix2]

end Cert.ReferenceIdeal.RefValue

end
-- ==== Proof.lean ====
/-
  A Bayesian linear layer: `x · Wᵀ + b` with `W = Wμ + (log (1 + e^Wρ) + c) · Wε` and `b` sampled the same way, over
  f32[4096, 4096] activations and weights.

  The kernel walks a 4 × 8 × 8 grid: for each [1024, 512] output tile it runs through the contraction in eight steps of
  512 input features, rebuilding the tile of sampled weights at each step, accumulating the tile product in a scratch buffer
  that is cleared at the first step, and at the last step storing the accumulator plus the sampled bias row. The reference
  samples the whole weight matrix and bias on the host and takes one contraction over all 4096 input features.

  On the extended reals both are the same function of the seven arguments (Proof/Spec.lean, `layer`): the kernel's and the
  host's exponential and `log (1 + ·)` are one function, the shared literal one binary value, a change of float format the
  identity, and the sum over 4096 is the sum of its eight consecutive runs of 512 — associativity and commutativity of
  addition only, so no entry need be finite and the precondition is never opened. The kernel side is read off the generated
  run of the pipeline (Proof/Pieces, Blocks, Payload, Fold, Final); the reference side off its generated run, one operation
  at a time (Proof/RefSide). The ideal pass rewrote nothing, so the kernel's idealization is its own text.
-/
import proofs.«125743_j19112604467219_1_alg».proof.Defs
import proofs.«125743_j19112604467219_1_alg».proof.Proof.Gen.Kernel
import proofs.«125743_j19112604467219_1_alg».proof.Proof.Gen.Kernel.Skeleton
import proofs.«125743_j19112604467219_1_alg».proof.Proof.Gen.Kernel.Launch
import proofs.«125743_j19112604467219_1_alg».proof.Proof.Gen.Kernel.Points
import proofs.«125743_j19112604467219_1_alg».proof.Proof.Gen.Kernel.Frame
import proofs.«125743_j19112604467219_1_alg».proof.Proof.Gen.KernelIdeal
import proofs.«125743_j19112604467219_1_alg».proof.Proof.Gen.KernelIdeal.Skeleton
import proofs.«125743_j19112604467219_1_alg».proof.Proof.Gen.KernelIdeal.Launch
import proofs.«125743_j19112604467219_1_alg».proof.Proof.Gen.KernelIdeal.Points
import proofs.«125743_j19112604467219_1_alg».proof.Proof.Gen.KernelIdeal.Frame
import proofs.«125743_j19112604467219_1_alg».proof.Proof.Gen.KernelIdeal.Value
import proofs.«125743_j19112604467219_1_alg».proof.Proof.Gen.ReferenceIdeal.Run
import proofs.«125743_j19112604467219_1_alg».proof.Proof.Gen.ReferenceIdeal.Read
import proofs.«125743_j19112604467219_1_alg».proof.Proof.Gen.ReferenceIdeal
import proofs.«125743_j19112604467219_1_alg».proof.Proof.Gen.Pre_finite_inputs
import proofs.«125743_j19112604467219_1_alg».proof.Proof.Final
import proofs.«125743_j19112604467219_1_alg».proof.Proof.RefSide
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and keeps its arguments: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with the layer of those arguments in their
    result arrays. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v15_eq, Cert.ReferenceIdeal.RefValue.ref_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
